-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x12x20000 : Shape := ⟨3, ![8, 12, 20000]⟩
abbrev S320000 : Shape := ⟨1, ![320000]⟩
abbrev S12x64 : Shape := ⟨2, ![12, 64]⟩
abbrev S64 : Shape := ⟨1, ![64]⟩
abbrev S64x12 : Shape := ⟨2, ![64, 12]⟩
abbrev S12 : Shape := ⟨1, ![12]⟩
abbrev S_ : Shape := ⟨0, ![]⟩

class Facts : Prop where
  bcast_S_S8x12x20000 : S_.BroadcastsInDim S8x12x20000 (![] : Fin 0 → Fin S8x12x20000.rank)
  reducesTo_S8x12x20000_S_d0_1_2 : S8x12x20000.ReducesTo [0, 1, 2] S_
  h_S_ : 0 < S_.numel
  bcast_S_S320000 : S_.BroadcastsInDim S320000 (![] : Fin 0 → Fin S320000.rank)
  reducesTo_S320000_S_d0 : S320000.ReducesTo [0] S_
  bcast_S_S12x64 : S_.BroadcastsInDim S12x64 (![] : Fin 0 → Fin S12x64.rank)
  reducesTo_S12x64_S_d0_1 : S12x64.ReducesTo [0, 1] S_
  bcast_S_S64 : S_.BroadcastsInDim S64 (![] : Fin 0 → Fin S64.rank)
  reducesTo_S64_S_d0 : S64.ReducesTo [0] S_
  bcast_S_S64x12 : S_.BroadcastsInDim S64x12 (![] : Fin 0 → Fin S64x12.rank)
  reducesTo_S64x12_S_d0_1 : S64x12.ReducesTo [0, 1] S_
  bcast_S_S12 : S_.BroadcastsInDim S12 (![] : Fin 0 → Fin S12.rank)
  reducesTo_S12_S_d0 : S12.ReducesTo [0] S_

variable [Facts]

def fn_part1 {F : FTy → Type} [FloatOps F] (main_arg4 : FVec F S64x12 .f32) (main_arg5 : FVec F S12 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x12 .f32 := Host.absf main_arg4
  let main_cst_6 : FVec F S_ .f32 := constant S_ .f32 0x7F800000#32
  let main_v20 : FVec F S64x12 .f32 := broadcastInDim S64x12 ![] bcast_S_S64x12 main_cst_6
  let main_v21 : IVec S64x12 1 := cmpf .olt main_v19 main_v20
  let main_c_7 : IVec S_ 1 := constantI S_ 1 1#1
  let main_v22 : IVec S_ 1 := (fun x v => Host.reduce IntOp.andi x v reducesTo_S64x12_S_d0_1 h_S_) main_v21 main_c_7
  let main_v23 : IVec S_ 1 := andi main_v18 main_v22
  let main_v24 : FVec F S12 .f32 := Host.absf main_arg5
  let main_cst_8 : FVec F S_ .f32 := constant S_ .f32 0x7F800000#32
  let main_v25 : FVec F S12 .f32 := broadcastInDim S12 ![] bcast_S_S12 main_cst_8
  let main_v26 : IVec S12 1 := cmpf .olt main_v24 main_v25
  let main_c_9 : IVec S_ 1 := constantI S_ 1 1#1
  let main_v27 : IVec S_ 1 := (fun x v => Host.reduce IntOp.andi x v reducesTo_S12_S_d0 h_S_) main_v26 main_c_9
  let main_v28 : IVec S_ 1 := andi main_v23 main_v27
  main_v28

def fn {F : FTy → Type} [FloatOps F] (main_arg0 : FVec F S8x12x20000 .f32) (main_arg1 : FVec F S320000 .f32) (main_arg2 : FVec F S12x64 .f32) (main_arg3 : FVec F S64 .f32) (main_arg4 : FVec F S64x12 .f32) (main_arg5 : FVec F S12 .f32) (main_arg6 : IVec S320000 32) (main_arg7 : IVec S320000 32) : IVec S_ 1 :=
  let main_v0 : FVec F S8x12x20000 .f32 := Host.absf main_arg0
  let main_cst : FVec F S_ .f32 := constant S_ .f32 0x7F800000#32
  let main_v1 : FVec F S8x12x20000 .f32 := broadcastInDim S8x12x20000 ![] bcast_S_S8x12x20000 main_cst
  let main_v2 : IVec S8x12x20000 1 := cmpf .olt main_v0 main_v1
  let main_c : IVec S_ 1 := constantI S_ 1 1#1
  let main_v3 : IVec S_ 1 := (fun x v => Host.reduce IntOp.andi x v reducesTo_S8x12x20000_S_d0_1_2 h_S_) main_v2 main_c
  let main_v4 : FVec F S320000 .f32 := Host.absf main_arg1
  let main_cst_0 : FVec F S_ .f32 := constant S_ .f32 0x7F800000#32
  let main_v5 : FVec F S320000 .f32 := broadcastInDim S320000 ![] bcast_S_S320000 main_cst_0
  let main_v6 : IVec S320000 1 := cmpf .olt main_v4 main_v5
  let main_c_1 : IVec S_ 1 := constantI S_ 1 1#1
  let main_v7 : IVec S_ 1 := (fun x v => Host.reduce IntOp.andi x v reducesTo_S320000_S_d0 h_S_) main_v6 main_c_1
  let main_v8 : IVec S_ 1 := andi main_v3 main_v7
  let main_v9 : FVec F S12x64 .f32 := Host.absf main_arg2
  let main_cst_2 : FVec F S_ .f32 := constant S_ .f32 0x7F800000#32
  let main_v10 : FVec F S12x64 .f32 := broadcastInDim S12x64 ![] bcast_S_S12x64 main_cst_2
  let main_v11 : IVec S12x64 1 := cmpf .olt main_v9 main_v10
  let main_c_3 : IVec S_ 1 := constantI S_ 1 1#1
  let main_v12 : IVec S_ 1 := (fun x v => Host.reduce IntOp.andi x v reducesTo_S12x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_v13 main_v16
-- ==== Kernel.lean ====
abbrev S8x12x20000 : Shape := ⟨3, ![8, 12, 20000]⟩
abbrev S320000 : Shape := ⟨1, ![320000]⟩
abbrev S12x64 : Shape := ⟨2, ![12, 64]⟩
abbrev S64 : Shape := ⟨1, ![64]⟩
abbrev S64x12 : Shape := ⟨2, ![64, 12]⟩
abbrev S12 : Shape := ⟨1, ![12]⟩
abbrev S8x20000x12 : Shape := ⟨3, ![8, 20000, 12]⟩
abbrev S8x20000x64 : Shape := ⟨3, ![8, 20000, 64]⟩
abbrev S1x20000x12 : Shape := ⟨3, ![1, 20000, 12]⟩
abbrev S1x20000x64 : Shape := ⟨3, ![1, 20000, 64]⟩
abbrev S20000x12 : Shape := ⟨2, ![20000, 12]⟩
abbrev S20000x64 : Shape := ⟨2, ![20000, 64]⟩
abbrev S_ : Shape := ⟨0, ![]⟩
abbrev S320000x1 : Shape := ⟨2, ![320000, 1]⟩
abbrev S8x320000x64 : Shape := ⟨3, ![8, 320000, 64]⟩
abbrev S1x320000x1 : Shape := ⟨3, ![1, 320000, 1]⟩
abbrev S1x64 : Shape := ⟨2, ![1, 64]⟩
abbrev S1x12 : Shape := ⟨2, ![1, 12]⟩

abbrev nBuf : Space → Nat
  | .hbm => 34
  | .vmem => 12
  | .smem => 0
  | _ => 0

abbrev bufTy : (tb : Table) → Fin (tcTables nBuf tb) → BufTy
  | .hbm, ⟨0, _⟩ => ⟨S8x12x20000, .f32⟩
  | .hbm, ⟨1, _⟩ => ⟨S320000, .f32⟩
  | .hbm, ⟨2, _⟩ => ⟨S12x64, .f32⟩
  | .hbm, ⟨3, _⟩ => ⟨S64, .f32⟩
  | .hbm, ⟨4, _⟩ => ⟨S64x12, .f32⟩
  | .hbm, ⟨5, _⟩ => ⟨S12, .f32⟩
  | .hbm, ⟨6, _⟩ => ⟨S320000, .i32⟩
  | .hbm, ⟨7, _⟩ => ⟨S320000, .i32⟩
  | .hbm, ⟨8, _⟩ => ⟨S8x20000x12, .f32⟩
  | .hbm, ⟨9, _⟩ => ⟨S8x20000x64, .f32⟩
  | .hbm, ⟨10, _⟩ => ⟨S_, .i32⟩
  | .hbm, ⟨11, _⟩ => ⟨S320000, .i32⟩
  | .hbm, ⟨12, _⟩ => ⟨S320000, .i1⟩
  | .hbm, ⟨13, _⟩ => ⟨S_, .i32⟩
  | .hbm, ⟨14, _⟩ => ⟨S320000, .i32⟩
  | .hbm, ⟨15, _⟩ => ⟨S320000, .i32⟩
  | .hbm, ⟨16, _⟩ => ⟨S320000, .i32⟩
  | .hbm, ⟨17, _⟩ => ⟨S320000x1, .i32⟩
  | .hbm, ⟨18, _⟩ => ⟨S8x320000x64, .f32⟩
  | .hbm, ⟨19, _⟩ => ⟨S1x320000x1, .f32⟩
  | .hbm, ⟨20, _⟩ => ⟨S8x320000x64, .f32⟩
  | .hbm, ⟨21, _⟩ => ⟨S8x320000x64, .f32⟩
  | .hbm, ⟨22, _⟩ => ⟨S_, .f32⟩
  | .hbm, ⟨23, _⟩ => ⟨S8x20000x64, .f32⟩
  | .hbm, ⟨24, _⟩ => ⟨S_, .i32⟩
  | .hbm, ⟨25, _⟩ => ⟨S320000, .i32⟩
  | .hbm, ⟨26, _⟩ => ⟨S320000, .i1⟩
  | .hbm, ⟨27, _⟩ => ⟨S_, .i32⟩
  | .hbm, ⟨28, _⟩ => ⟨S320000, .i32⟩
  | .hbm, ⟨29, _⟩ => ⟨S320000, .i32⟩
  | .hbm, ⟨30, _⟩ => ⟨S320000, .i32⟩
  | .hbm, ⟨31, _⟩ => ⟨S320000x1, .i32⟩
  | .hbm, ⟨32, _⟩ => ⟨S8x20000x64, .f32⟩
  | .hbm, ⟨33, _⟩ => ⟨S8x20000x12, .f32⟩
  | .local _ .vmem, ⟨0, _⟩ => ⟨S1x20000x12, .f32⟩
  | .local _ .vmem, ⟨1, _⟩ => ⟨S1x20000x12, .f32⟩
  | .local _ .vmem, ⟨2, _⟩ => ⟨S12x64, .f32⟩
  | .local _ .vmem, ⟨3, _⟩ => ⟨S1x20000x64, .f32⟩
  | .local _ .vmem, ⟨4, _⟩ => ⟨S1x20000x64, .f32⟩
  | .local _ .vmem, ⟨5, _⟩ => ⟨S1x20000x64, .f32⟩
  | .local _ .vmem, ⟨6, _⟩ => ⟨S1x20000x64, .f32⟩
  | .local _ .vmem, ⟨7, _⟩ => ⟨S64, .f32⟩
  | .local _ .vmem, ⟨8, _⟩ => ⟨S64x12, .f32⟩
  | .local _ .vmem, ⟨9, _⟩ => ⟨S12, .f32⟩
  | .local _ .vmem, ⟨10, _⟩ => ⟨S1x20000x12, .f32⟩
  | .local _ .vmem, ⟨11, _⟩ => ⟨S1x20000x12, .f32⟩
  | _, _ => ⟨S8x12x20000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_c_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst : Ref sig .tc := ⟨.hbm, 22, rfl⟩
abbrev main_v12 : Ref sig .tc := ⟨.hbm, 23, rfl⟩
abbrev main_c_1 : Ref sig .tc := ⟨.hbm, 24, rfl⟩
abbrev main_v13 : Ref sig .tc := ⟨.hbm, 25, rfl⟩
abbrev main_v14 : Ref sig .tc := ⟨.hbm, 26, rfl⟩
abbrev main_c_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg4_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem4_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x20000x12 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S12x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x20000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![8], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x20000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x12 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S12 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S1x20000x12 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  transposes_S8x12x20000_S8x20000x12_0_2_1 : S8x12x20000.Transposes [0, 2, 1] S8x20000x12
  inb_S1x20000x12_S1x20000x12_0_0_0 : ∀ a, (![0, 0, 0] : Fin 3 → Nat) a + S1x20000x12.size a ≤ S1x20000x12.size a
  h_S1x20000x12 : 0 < S1x20000x12.numel
  shapeCasts_S1x20000x12_S20000x12 : S1x20000x12.ShapeCasts S20000x12
  bitsLt_bf16_f32 : FTy.bits .bf16 < FTy.bits .f32
  inb_S12x64_S12x64_0_0 : ∀ a, (![0, 0] : Fin 2 → Nat) a + S12x64.size a ≤ S12x64.size a
  h_S12x64 : 0 < S12x64.numel
  inb_S1x20000x64_S1x20000x64_0_0_0 : ∀ a, (![0, 0, 0] : Fin 3 → Nat) a + S1x20000x64.size a ≤ S1x20000x64.size a
  h_S1x20000x64 : 0 < S1x20000x64.numel
  shapeCasts_S1x20000x64_S20000x64 : S1x20000x64.ShapeCasts S20000x64
  shapeCasts_S20000x64_S1x20000x64 : S20000x64.ShapeCasts S1x20000x64
  bcast_S_S320000 : S_.BroadcastsInDim S320000 (![] : Fin 0 → Fin S320000.rank)
  bcast_S320000_S320000x1_0 : S320000.BroadcastsInDim S320000x1 (![0] : Fin 1 → Fin S320000x1.rank)
  bcast_S320000_S1x320000x1_1 : S320000.BroadcastsInDim S1x320000x1 (![1] : Fin 1 → Fin S1x320000x1.rank)
  bcast_S1x320000x1_S8x320000x64_0_1_2 : S1x320000x1.BroadcastsInDim S8x320000x64 (![0, 1, 2] : Fin 3 → Fin S8x320000x64.rank)
  bcast_S_S8x20000x64 : S_.BroadcastsInDim S8x20000x64 (![] : Fin 0 → Fin S8x20000x64.rank)
  inb_S64_S64_0 : ∀ a, (![0] : Fin 1 → Nat) a + S64.size a ≤ S64.size a
  h_S64 : 0 < S64.numel
  shapeCasts_S64_S1x64 : S64.ShapeCasts S1x64
  broadcasts_S1x64_S20000x64 : S1x64.Broadcasts S20000x64
  inb_S64x12_S64x12_0_0 : ∀ a, (![0, 0] : Fin 2 → Nat) a + S64x12.size a ≤ S64x12.size a
  h_S64x12 : 0 < S64x12.numel
  inb_S12_S12_0 : ∀ a, (![0] : Fin 1 → Nat) a + S12.size a ≤ S12.size a
  h_S12 : 0 < S12.numel
  shapeCasts_S12_S1x12 : S12.ShapeCasts S1x12
  broadcasts_S1x12_S20000x12 : S1x12.Broadcasts S20000x12
  shapeCasts_S20000x12_S1x20000x12 : S20000x12.ShapeCasts S1x20000x12
  dot_S20000x12_S12x64_S20000x64_1_0_0_1_n_n_wf : DotDims.WF S20000x12 S12x64 S20000x64 [1] [0] [0] [1] [] []
  gather_S8x20000x64_S320000x1_S8x320000x64_02_1_n_n_1_1_8164_wf : GatherDims.WF S8x20000x64 S320000x1 S8x320000x64 [0, 2] [1] [] [1] [] 1 ![8, 1, 64]
  scatter_S8x20000x64_S320000x1_S8x320000x64_02_1_1_1_wf : ScatterDims.WF S8x20000x64 S320000x1 S8x320000x64 [0, 2] [1] [1] 1
  dot_S20000x64_S64x12_S20000x12_1_0_0_1_n_n_wf : DotDims.WF S20000x64 S64x12 S20000x12 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x20000x12.size a ≤ S8x20000x12.size a
  hwx0_0 : ∀ i : grid0.Coords, EltTy.bits .f32 = 32 ∨ (Rect.block (s := S8x20000x12) S1x20000x12.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S12x64.size a ≤ S12x64.size a
  hwx0_1 : ∀ i : grid0.Coords, EltTy.bits .f32 = 32 ∨ (Rect.block (s := S12x64) S12x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x20000x64.size a ≤ S8x20000x64.size a
  hwx0_2 : ∀ i : grid0.Coords, EltTy.bits .f32 = 32 ∨ (Rect.block (s := S8x20000x64) S1x20000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x20000x64.size a ≤ S8x20000x64.size a
  hwx1_0 : ∀ i : grid1.Coords, EltTy.bits .f32 = 32 ∨ (Rect.block (s := S8x20000x64) S1x20000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64.size a ≤ S64.size a
  hwx1_1 : ∀ i : grid1.Coords, EltTy.bits .f32 = 32 ∨ (Rect.block (s := S64) S64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x12.size a ≤ S64x12.size a
  hwx1_2 : ∀ i : grid1.Coords, EltTy.bits .f32 = 32 ∨ (Rect.block (s := S64x12) S64x12.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S12.size a ≤ S12.size a
  hwx1_3 : ∀ i : grid1.Coords, EltTy.bits .f32 = 32 ∨ (Rect.block (s := S12) S12.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x20000x12.size a ≤ S8x20000x12.size a
  hwx1_4 : ∀ i : grid1.Coords, EltTy.bits .f32 = 32 ∨ (Rect.block (s := S8x20000x12) S1x20000x12.size (cc1_transform_4 i) (hinb1_4 i)).WholeWords (EltTy.packing .f32)

variable [Facts₀]

def dot_S20000x12_S12x64_S20000x64_1_0_0_1_n_n : DotDims S20000x12 S12x64 S20000x64 where
  lhsContracting := [1]
  rhsContracting := [0]
  lhsNonContracting := [0]
  rhsNonContracting := [1]
  lhsBatch := []
  rhsBatch := []
  wf := dot_S20000x12_S12x64_S20000x64_1_0_0_1_n_n_wf
def gather_S8x20000x64_S320000x1_S8x320000x64_02_1_n_n_1_1_8164 : GatherDims S8x20000x64 S320000x1 S8x320000x64 where
  offsetDims := [0, 2]
  collapsedSliceDims := [1]
  operandBatchingDims := []
  startIndicesBatchingDims := []
  startIndexMap := [1]
  indexVectorDim := 1
  sliceSizes := ![8, 1, 64]
  wf := gather_S8x20000x64_S320000x1_S8x320000x64_02_1_n_n_1_1_8164_wf
def scatter_S8x20000x64_S320000x1_S8x320000x64_02_1_1_1 : ScatterDims S8x20000x64 S320000x1 S8x320000x64 where
  updateWindowDims := [0, 2]
  insertedWindowDims := [1]
  scatterDimsToOperandDims := [1]
  indexVectorDim := 1
  wf := scatter_S8x20000x64_S320000x1_S8x320000x64_02_1_1_1_wf
def dot_S20000x64_S64x12_S20000x12_1_0_0_1_n_n : DotDims S20000x64 S64x12 S20000x12 where
  lhsContracting := [1]
  rhsContracting := [0]
  lhsNonContracting := [0]
  rhsNonContracting := [1]
  lhsBatch := []
  rhsBatch := []
  wf := dot_S20000x64_S64x12_S20000x12_1_0_0_1_n_n_wf

abbrev win0_0 : Pipeline.Window sig grid0 :=
  Pipeline.Window.ofSpec (Memref.whole main_v0) S1x20000x12.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S12x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x20000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v19) S1x20000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S64x12.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S12.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v20) S1x20000x12.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S8x12x20000 : Shape := ⟨3, ![8, 12, 20000]⟩
abbrev S320000 : Shape := ⟨1, ![320000]⟩
abbrev S12x64 : Shape := ⟨2, ![12, 64]⟩
abbrev S64 : Shape := ⟨1, ![64]⟩
abbrev S64x12 : Shape := ⟨2, ![64, 12]⟩
abbrev S12 : Shape := ⟨1, ![12]⟩
abbrev S8x20000x12 : Shape := ⟨3, ![8, 20000, 12]⟩
abbrev S8x20000x64 : Shape := ⟨3, ![8, 20000, 64]⟩
abbrev S_ : Shape := ⟨0, ![]⟩
abbrev S320000x1 : Shape := ⟨2, ![320000, 1]⟩
abbrev S8x320000x64 : Shape := ⟨3, ![8, 320000, 64]⟩
abbrev S1x320000x1 : Shape := ⟨3, ![1, 320000, 1]⟩
abbrev S1x1x64 : Shape := ⟨3, ![1, 1, 64]⟩
abbrev S1x1x12 : Shape := ⟨3, ![1, 1, 12]⟩

abbrev nBuf : Space → Nat
  | .hbm => 46
  | .vmem => 0
  | .smem => 0
  | _ => 0

abbrev bufTy : (tb : Table) → Fin (tcTables nBuf tb) → BufTy
  | .hbm, ⟨0, _⟩ => ⟨S8x12x20000, .f32⟩
  | .hbm, ⟨1, _⟩ => ⟨S320000, .f32⟩
  | .hbm, ⟨2, _⟩ => ⟨S12x64, .f32⟩
  | .hbm, ⟨3, _⟩ => ⟨S64, .f32⟩
  | .hbm, ⟨4, _⟩ => ⟨S64x12, .f32⟩
  | .hbm, ⟨5, _⟩ => ⟨S12, .f32⟩
  | .hbm, ⟨6, _⟩ => ⟨S320000, .i32⟩
  | .hbm, ⟨7, _⟩ => ⟨S320000, .i32⟩
  | .hbm, ⟨8, _⟩ => ⟨S8x20000x12, .f32⟩
  | .hbm, ⟨9, _⟩ => ⟨S8x20000x64, .f32⟩
  | .hbm, ⟨10, _⟩ => ⟨S_, .i32⟩
  | .hbm, ⟨11, _⟩ => ⟨S320000, .i32⟩
  | .hbm, ⟨12, _⟩ => ⟨S320000, .i1⟩
  | .hbm, ⟨13, _⟩ => ⟨S_, .i32⟩
  | .hbm, ⟨14, _⟩ => ⟨S320000, .i32⟩
  | .hbm, ⟨15, _⟩ => ⟨S320000, .i32⟩
  | .hbm, ⟨16, _⟩ => ⟨S320000, .i32⟩
  | .hbm, ⟨17, _⟩ => ⟨S320000x1, .i32⟩
  | .hbm, ⟨18, _⟩ => ⟨S8x320000x64, .f32⟩
  | .hbm, ⟨19, _⟩ => ⟨S1x320000x1, .f32⟩
  | .hbm, ⟨20, _⟩ => ⟨S8x320000x64, .f32⟩
  | .hbm, ⟨21, _⟩ => ⟨S8x320000x64, .f32⟩
  | .hbm, ⟨22, _⟩ => ⟨S_, .f32⟩
  | .hbm, ⟨23, _⟩ => ⟨S8x20000x64, .f32⟩
  | .hbm, ⟨24, _⟩ => ⟨S_, .i32⟩
  | .hbm, ⟨25, _⟩ => ⟨S320000, .i32⟩
  | .hbm, ⟨26, _⟩ => ⟨S320000, .i1⟩
  | .hbm, ⟨27, _⟩ => ⟨S_, .i32⟩
  | .hbm, ⟨28, _⟩ => ⟨S320000, .i32⟩
  | .hbm, ⟨29, _⟩ => ⟨S320000, .i32⟩
  | .hbm, ⟨30, _⟩ => ⟨S320000, .i32⟩
  | .hbm, ⟨31, _⟩ => ⟨S320000x1, .i32⟩
  | .hbm, ⟨32, _⟩ => ⟨S8x20000x64, .f32⟩
  | .hbm, ⟨33, _⟩ => ⟨S1x1x64, .f32⟩
  | .hbm, ⟨34, _⟩ => ⟨S8x20000x64, .f32⟩
  | .hbm, ⟨35, _⟩ => ⟨S8x20000x64, .f32⟩
  | .hbm, ⟨36, _⟩ => ⟨S_, .f32⟩
  | .hbm, ⟨37, _⟩ => ⟨S8x20000x64, .f32⟩
  | .hbm, ⟨38, _⟩ => ⟨S8x20000x64, .f32⟩
  | .hbm, ⟨39, _⟩ => ⟨S8x20000x12, .f32⟩
  | .hbm, ⟨40, _⟩ => ⟨S1x1x12, .f32⟩
  | .hbm, ⟨41, _⟩ => ⟨S8x20000x12, .f32⟩
  | .hbm, ⟨42, _⟩ => ⟨S8x20000x12, .f32⟩
  | .hbm, ⟨43, _⟩ => ⟨S_, .f32⟩
  | .hbm, ⟨44, _⟩ => ⟨S8x20000x12, .f32⟩
  | .hbm, ⟨45, _⟩ => ⟨S8x20000x12, .f32⟩
  | _, _ => ⟨S8x12x20000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_c_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst : Ref sig .tc := ⟨.hbm, 22, rfl⟩
abbrev main_v12 : Ref sig .tc := ⟨.hbm, 23, rfl⟩
abbrev main_c_1 : Ref sig .tc := ⟨.hbm, 24, rfl⟩
abbrev main_v13 : Ref sig .tc := ⟨.hbm, 25, rfl⟩
abbrev main_v14 : Ref sig .tc := ⟨.hbm, 26, rfl⟩
abbrev main_c_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_call0_cst : Ref sig .tc := ⟨.hbm, 36, rfl⟩
abbrev main_call0_v0 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_call1_cst : Ref sig .tc := ⟨.hbm, 43, rfl⟩
abbrev main_call1_v0 : Ref sig .tc := ⟨.hbm, 44, rfl⟩
abbrev main_v28 : Ref sig .tc := ⟨.hbm, 45, rfl⟩

abbrev nD : Nat := 1
abbrev τ : Topo := Topo.v7x

variable {F : FTy → Type} [FloatOps F]

class Facts₀ : Prop where
  transposes_S8x12x20000_S8x20000x12_0_2_1 : S8x12x20000.Transposes [0, 2, 1] S8x20000x12
  bcast_S_S320000 : S_.BroadcastsInDim S320000 (![] : Fin 0 → Fin S320000.rank)
  bcast_S320000_S320000x1_0 : S320000.BroadcastsInDim S320000x1 (![0] : Fin 1 → Fin S320000x1.rank)
  bcast_S320000_S1x320000x1_1 : S320000.BroadcastsInDim S1x320000x1 (![1] : Fin 1 → Fin S1x320000x1.rank)
  bcast_S1x320000x1_S8x320000x64_0_1_2 : S1x320000x1.BroadcastsInDim S8x320000x64 (![0, 1, 2] : Fin 3 → Fin S8x320000x64.rank)
  bcast_S_S8x20000x64 : S_.BroadcastsInDim S8x20000x64 (![] : Fin 0 → Fin S8x20000x64.rank)
  bcast_S64_S1x1x64_2 : S64.BroadcastsInDim S1x1x64 (![2] : Fin 1 → Fin S1x1x64.rank)
  bcast_S1x1x64_S8x20000x64_0_1_2 : S1x1x64.BroadcastsInDim S8x20000x64 (![0, 1, 2] : Fin 3 → Fin S8x20000x64.rank)
  bcast_S12_S1x1x12_2 : S12.BroadcastsInDim S1x1x12 (![2] : Fin 1 → Fin S1x1x12.rank)
  bcast_S1x1x12_S8x20000x12_0_1_2 : S1x1x12.BroadcastsInDim S8x20000x12 (![0, 1, 2] : Fin 3 → Fin S8x20000x12.rank)
  bcast_S_S8x20000x12 : S_.BroadcastsInDim S8x20000x12 (![] : Fin 0 → Fin S8x20000x12.rank)
  dot_S8x20000x12_S12x64_S8x20000x64_2_0_01_1_n_n_wf : DotDims.WF S8x20000x12 S12x64 S8x20000x64 [2] [0] [0, 1] [1] [] []
  gather_S8x20000x64_S320000x1_S8x320000x64_02_1_n_n_1_1_8164_wf : GatherDims.WF S8x20000x64 S320000x1 S8x320000x64 [0, 2] [1] [] [1] [] 1 ![8, 1, 64]
  scatter_S8x20000x64_S320000x1_S8x320000x64_02_1_1_1_wf : ScatterDims.WF S8x20000x64 S320000x1 S8x320000x64 [0, 2] [1] [1] 1
  dot_S8x20000x64_S64x12_S8x20000x12_2_0_01_1_n_n_wf : DotDims.WF S8x20000x64 S64x12 S8x20000x12 [2] [0] [0, 1] [1] [] []

variable [Facts₀]

def dot_S8x20000x12_S12x64_S8x20000x64_2_0_01_1_n_n : DotDims S8x20000x12 S12x64 S8x20000x64 where
  lhsContracting := [2]
  rhsContracting := [0]
  lhsNonContracting := [0, 1]
  rhsNonContracting := [1]
  lhsBatch := []
  rhsBatch := []
  wf := dot_S8x20000x12_S12x64_S8x20000x64_2_0_01_1_n_n_wf
def gather_S8x20000x64_S320000x1_S8x320000x64_02_1_n_n_1_1_8164 : GatherDims S8x20000x64 S320000x1 S8x320000x64 where
  offsetDims := [0, 2]
  collapsedSliceDims := [1]
  operandBatchingDims := []
  startIndicesBatchingDims := []
  startIndexMap := [1]
  indexVectorDim := 1
  sliceSizes := ![8, 1, 64]
  wf := gather_S8x20000x64_S320000x1_S8x320000x64_02_1_n_n_1_1_8164_wf
def scatter_S8x20000x64_S320000x1_S8x320000x64_02_1_1_1 : ScatterDims S8x20000x64 S320000x1 S8x320000x64 where
  updateWindowDims := [0, 2]
  insertedWindowDims := [1]
  scatterDimsToOperandDims := [1]
  indexVectorDim := 1
  wf := scatter_S8x20000x64_S320000x1_S8x320000x64_02_1_1_1_wf
def dot_S8x20000x64_S64x12_S8x20000x12_2_0_01_1_n_n : DotDims S8x20000x64 S64x12 S8x20000x12 where
  lhsContracting := [2]
  rhsContracting := [0]
  lhsNonContracting := [0, 1]
  rhsNonContracting := [1]
  lhsBatch := []
  rhsBatch := []
  wf := dot_S8x20000x64_S64x12_S8x20000x12_2_0_01_1_n_n_wf

class Facts : Prop extends Facts₀ where

variable [Facts]
-- ==== Proof.Spec.lean ====
/-
  The two dense layers of the graph-convolution block as functions of whole arrays, index by index, on the
  extended reals. Between them the program gathers rows of the first layer's result along the edges, scales each by
  its edge weight and adds it into its destination row; both programs do that with the same host operations, so it is
  never opened here: the second layer is stated over whatever array `agg` that aggregation produced.

  * `linAt xt w b n f = Σ_t xt (b, n, t) · w (t, f)`: the node features times the layer's weights.
  * `denseAt agg bg wd bd b n t = max (Σ_f max (agg (b, n, f) + bg f) 0 · wd (f, t) + bd t) 0`: bias, relu,
    the projection back to the time axis, bias, relu.

  Both are stated at explicit coordinates `b < 8`, `n < 20000` and the last axis; `lin` and `dense` are the arrays
  they make, an index standing for its three coordinates.

  Sums over a finite index type in the extended reals are commutative and associative, so neither formula depends on
  an order of summation; no distributive law is used anywhere, hence no finiteness of the inputs.
-/
import Idealize.ShloMosaic.PureOps.Ideal
import Idealize.ShloMosaic.Lib.ValueIdx

noncomputable section

namespace Cert.Spec

open Idealize.ShloMosaic Idealize.ShloMosaic.ValueIdx

/-- The first layer at `(b, n, f)`: row `(b, n)` of the transposed input against column `f` of the weights. -/
def linAt (xt : (⟨3, ![8, 20000, 12]⟩ : Shape).Idx → EReal) (w : (⟨2, ![12, 64]⟩ : Shape).Idx → EReal)
    (b : Fin 8) (n : Fin 20000) (f : Fin 64) : EReal :=
  ∑ t : Fin 12, xt (ix3 b n t) * w (ix2 t f)

/-- The first layer as an array. -/
def lin (xt : (⟨3, ![8, 20000, 12]⟩ : Shape).Idx → EReal) (w : (⟨2, ![12, 64]⟩ : Shape).Idx → EReal) :
    (⟨3, ![8, 20000, 64]⟩ : Shape).Idx → EReal :=
  fun i => linAt xt w ⟨(i 0).val, (i 0).isLt⟩ ⟨(i 1).val, (i 1).isLt⟩ ⟨(i 2).val, (i 2).isLt⟩

theorem lin_ix3 (xt : (⟨3, ![8, 20000, 12]⟩ : Shape).Idx → EReal) (w : (⟨2, ![12, 64]⟩ : Shape).Idx → EReal)
    (b : Fin 8) (n : Fin 20000) (f : Fin 64) : lin xt w (ix3 b n f) = linAt xt w b n f := rfl

/-- The second layer at `(b, n, t)` over an aggregated array `agg`: `relu (relu (agg + bg) · wd + bd)`. -/
def denseAt (agg : (⟨3, ![8, 20000, 64]⟩ : Shape).Idx → EReal) (bg : (⟨1, ![64]⟩ : Shape).Idx → EReal)
    (wd : (⟨2, ![64, 12]⟩ : Shape).Idx → EReal) (bd : (⟨1, ![12]⟩ : Shape).Idx → EReal)
    (b : Fin 8) (n : Fin 20000) (t : Fin 12) : EReal :=
  max ((∑ f : Fin 64, max (agg (ix3 b n f) + bg (ix1 f)) 0 * wd (ix2 f t)) + bd (ix1 t)) 0

/-- The second layer as an array. -/
def dense (agg : (⟨3, ![8, 20000, 64]⟩ : Shape).Idx → EReal) (bg : (⟨1, ![64]⟩ : Shape).Idx → EReal)
    (wd : (⟨2, ![64, 12]⟩ : Shape).Idx → EReal) (bd : (⟨1, ![12]⟩ : Shape).Idx → EReal) :
    (⟨3, ![8, 20000, 12]⟩ : Shape).Idx → EReal :=
  fun i => denseAt agg bg wd bd ⟨(i 0).val, (i 0).isLt⟩ ⟨(i 1).val, (i 1).isLt⟩ ⟨(i 2).val, (i 2).isLt⟩

theorem dense_ix3 (agg : (⟨3, ![8, 20000, 64]⟩ : Shape).Idx → EReal) (bg : (⟨1, ![64]⟩ : Shape).Idx → EReal)
    (wd : (⟨2, ![64, 12]⟩ : Shape).Idx → EReal) (bd : (⟨1, ![12]⟩ : Shape).Idx → EReal)
    (b : Fin 8) (n : Fin 20000) (t : Fin 12) : dense agg bg wd bd (ix3 b n t) = denseAt agg bg wd bd b n t := rfl

end Cert.Spec

end
-- ==== Proof.Blocks0.lean ====
/-
  Region 0 of the kernel program, read as a value: after its eight grid points the array it writes holds the first
  dense layer `Spec.lin` of the two arrays it reads, whatever those held when the region was entered.

  Grid point `t` stages batch `t` of the transposed input, a [1, 20000, 12] block, beside the whole [12, 64] weight
  matrix, multiplies them (the narrowing of both operands to bf16 is the identity on the extended reals, and the
  product into a zero accumulator is the plain sum over the twelve features) and writes the [1, 20000, 64] block back as
  batch `t` of the result. Element `(u, n, f)` of that block is element `(t, n, f)` of the array, and it reads
  elements `(t, n, ·)` of the input: so block `t` of the result is the restriction of `Spec.lin` to batch `t`, and the
  eight blocks cover the array, batch `b` by point `b`.
-/
import proofs.«172769_j77309411573_1_alg».proof.Proof.Gen.KernelIdeal.Frame
import proofs.«172769_j77309411573_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Blocks0

open Cert.KernelIdeal Cert.KernelIdeal.Gen Idealize.ShloMosaic Idealize.ShloMosaic.TcCoe Idealize.ShloMosaic.ValueIdx
open Idealize.SL.Sem
open Idealize.ShloMosaic.Pipeline (Dat Cfg Window)

/-! ## The block product's operand indices, axis by axis -/

theorem lhs_0 (j : S20000x64.Idx) (q : dot_S20000x12_S12x64_S20000x64_1_0_0_1_n_n.contr.Idx) :
    (dot_S20000x12_S12x64_S20000x64_1_0_0_1_n_n.lhsIdx j q 0).val = (j 0).val := by
  unfold DotDims.lhsIdx
  rw [dif_neg (show ¬(0 : Fin S20000x12.rank) ∈ dot_S20000x12_S12x64_S20000x64_1_0_0_1_n_n.lhsBatch by decide), dif_pos (show (0 : Fin S20000x12.rank) ∈ dot_S20000x12_S12x64_S20000x64_1_0_0_1_n_n.lhsNonContracting by decide)]
  rfl
theorem lhs_1 (j : S20000x64.Idx) (q : dot_S20000x12_S12x64_S20000x64_1_0_0_1_n_n.contr.Idx) :
    (dot_S20000x12_S12x64_S20000x64_1_0_0_1_n_n.lhsIdx j q 1).val = (q ⟨0, by decide⟩).val :=
  dot_S20000x12_S12x64_S20000x64_1_0_0_1_n_n.lhsIdx_val_of_single rfl j q
theorem rhs_0 (j : S20000x64.Idx) (q : dot_S20000x12_S12x64_S20000x64_1_0_0_1_n_n.contr.Idx) :
    (dot_S20000x12_S12x64_S20000x64_1_0_0_1_n_n.rhsIdx j q 0).val = (q ⟨0, by decide⟩).val :=
  dot_S20000x12_S12x64_S20000x64_1_0_0_1_n_n.rhsIdx_val_of_single rfl j q
theorem rhs_1 (j : S20000x64.Idx) (q : dot_S20000x12_S12x64_S20000x64_1_0_0_1_n_n.contr.Idx) :
    (dot_S20000x12_S12x64_S20000x64_1_0_0_1_n_n.rhsIdx j q 1).val = (j 1).val := by
  unfold DotDims.rhsIdx
  rw [dif_neg (show ¬(1 : Fin S12x64.rank) ∈ dot_S20000x12_S12x64_S20000x64_1_0_0_1_n_n.rhsBatch by decide), dif_pos (show (1 : Fin S12x64.rank) ∈ dot_S20000x12_S12x64_S20000x64_1_0_0_1_n_n.rhsNonContracting by decide)]
  rfl

/-- The block product of a [20000, 12] block and the [12, 64] weights at `(n, f)`: the sum over the feature axis. -/
theorem matmul_at (a : FVec Ideal S20000x12 .bf16) (w : FVec Ideal S12x64 .bf16) (n : Fin 20000) (f : Fin 64) :
    matmul dot_S20000x12_S12x64_S20000x64_1_0_0_1_n_n none a w (constant S20000x64 .f32 0x00000000#32) (ix2 n f)
      = ∑ t : Fin 12, a (ix2 n t) * w (ix2 t f) := by
  simp only [matmul]
  rw [Ideal.matmul_constant_zero_apply, ← Equiv.sum_comp (ValueIdx.contrEquiv1 dot_S20000x12_S12x64_S20000x64_1_0_0_1_n_n 12 rfl rfl).symm]
  refine Finset.sum_congr rfl fun t _ => ?_
  have ht := ValueIdx.contrEquiv1_symm_val dot_S20000x12_S12x64_S20000x64_1_0_0_1_n_n 12 rfl rfl t
  have el : dot_S20000x12_S12x64_S20000x64_1_0_0_1_n_n.lhsIdx (ix2 n f) ((ValueIdx.contrEquiv1 dot_S20000x12_S12x64_S20000x64_1_0_0_1_n_n 12 rfl rfl).symm t) = ix2 n t := funext fun a => Fin.ext (by
    match a with
    | ⟨0, _⟩ => exact lhs_0 _ _
    | ⟨1, _⟩ => exact (lhs_1 _ _).trans ht)
  have er : dot_S20000x12_S12x64_S20000x64_1_0_0_1_n_n.rhsIdx (ix2 n f) ((ValueIdx.contrEquiv1 dot_S20000x12_S12x64_S20000x64_1_0_0_1_n_n 12 rfl rfl).symm t) = ix2 t f := funext fun a => Fin.ext (by
    match a with
    | ⟨0, _⟩ => exact (rhs_0 _ _).trans ht
    | ⟨1, _⟩ => exact rhs_1 _ _)
  rw [el, er]

/-- What region 0's body stores at `(u, n, f)` of its [1, 20000, 64] block, from its loaded blocks. -/
theorem pay0_at (x0 : Vec Ideal S1x20000x12 .f32) (x1 : Vec Ideal S12x64 .f32) (u : Fin 1) (n : Fin 20000) (f : Fin 64) :
    k0_pay1 (F := Ideal) x0 x1 (ix3 u n f) = ∑ t : Fin 12, x0 (ix3 (0 : Fin 1) n t) * x1 (ix2 t f) := by
  unfold k0_pay1
  rw [shapeCast_ab_1ab_apply, matmul_at]
  refine Finset.sum_congr rfl fun t _ => ?_
  rw [truncf_apply, truncf_apply, shapeCast_1ab_ab_apply]

/-! ## From the blocks to the array -/

variable (V : (c : Dev nD) → (b : Ref sig .tc) → Buf (Elt Ideal) ((c : Thread nD τ).loc b))

theorem hz3 : (![0, 0, 0] : Fin 3 → Nat) = fun _ => 0 := funext fun a => by fin_cases a <;> rfl
theorem hz2 : (![0, 0] : Fin 2 → Nat) = fun _ => 0 := funext fun a => by fin_cases a <;> rfl

/-- The printed index maps, decided over the eight points: point `t` takes batch `t` of the input and of the result,
    and the weights whole. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 3) = t.val ∧ win0_2.index t (1 : Fin 3) = 0 ∧ win0_2.index t (2 : Fin 3) = 0 :=
  (by decide +kernel : ∀ t : Fin grid0.N, _)

/-- Point `t` as a batch number. -/
abbrev batch (t : Fin cfg0.N) : Fin 8 := ⟨t.val, t.isLt⟩

/-- Element `(u, n, f)` of result block `t` is element `(t, n, f)` of the array. -/
theorem emb_out (t : Fin cfg0.N) (u : Fin 1) (n : Fin 20000) (f : Fin 64) :
    ((cfg0.win 2).blk t).view.emb (ix3 u n f) = ix3 (batch t) n f := by
  obtain ⟨-, -, -, -, -, e0, e1, e2⟩ := idx_facts t
  funext a; apply Fin.ext
  match a with
  | ⟨0, _⟩ => show win0_2.index t (0 : Fin 3) * 1 + 1 * u.val = t.val; have hu : u.val < 1 := u.isLt; omega
  | ⟨1, _⟩ => show win0_2.index t (1 : Fin 3) * 20000 + 1 * n.val = n.val; omega
  | ⟨2, _⟩ => show win0_2.index t (2 : Fin 3) * 64 + 1 * f.val = f.val; omega

/-- Element `(u, n, k)` of input block `t` is element `(t, n, k)` of the transposed input. -/
theorem emb_in (t : Fin cfg0.N) (u : Fin 1) (n : Fin 20000) (k : Fin 12) :
    ((cfg0.win 0).blk t).view.emb (ix3 u n k) = ix3 (batch t) n k := by
  obtain ⟨e0, e1, e2, -, -, -, -, -⟩ := idx_facts t
  funext a; apply Fin.ext
  match a with
  | ⟨0, _⟩ => show win0_0.index t (0 : Fin 3) * 1 + 1 * u.val = t.val; have hu : u.val < 1 := u.isLt; omega
  | ⟨1, _⟩ => show win0_0.index t (1 : Fin 3) * 20000 + 1 * n.val = n.val; omega
  | ⟨2, _⟩ => show win0_0.index t (2 : Fin 3) * 12 + 1 * k.val = k.val; omega

/-- The weights' one block is the whole matrix. -/
theorem emb_w (t : Fin cfg0.N) (k : Fin 12) (f : Fin 64) :
    ((cfg0.win 1).blk t).view.emb (ix2 k f) = ix2 k f := by
  obtain ⟨-, -, -, e0, e1, -, -, -⟩ := idx_facts t
  funext a; apply Fin.ext
  match a with
  | ⟨0, _⟩ => show win0_1.index t (0 : Fin 2) * 12 + 1 * k.val = k.val; omega
  | ⟨1, _⟩ => show win0_1.index t (1 : Fin 2) * 64 + 1 * f.val = f.val; omega

/-- WHAT POINT `t` WRITES BACK is block `t` of the first layer of the arrays the region found. -/
theorem flushed_eq (c : Dev nD) (t : Fin cfg0.N) :
    (dat0 V c).flushed 2 t
      = ((cfg0.win 2).blk t).view.read (Elt Ideal) (Cert.Spec.lin (V c main_v0) (V c main_arg2)) := by
  show (cfg0.win 2).cut (grid0.coords t) ((dat0 V c).after 2 t) = _
  rw [after0_2]
  unfold out0_2
  rw [View.canon_unit_zero hz3]
  simp only [View.ld_unit_zero (S := S1x20000x12) hz3, View.ld_unit_zero (S := S12x64) hz2]
  funext j
  obtain ⟨u, n, f, rfl⟩ : ∃ (u : Fin 1) (n : Fin 20000) (f : Fin 64), j = ix3 u n f := ⟨j 0, j 1, j 2, eq_ix3 j⟩
  show k0_pay1 (F := Ideal) (iblk0 V c 0 t) (iblk0 V c 1 t) (ix3 u n f)
    = Cert.Spec.lin (V c main_v0) (V c main_arg2) (((cfg0.win 2).blk t).view.emb (ix3 u n f))
  refine (pay0_at _ _ u n f).trans ?_
  rw [emb_out, Cert.Spec.lin_ix3]
  unfold Cert.Spec.linAt
  refine Finset.sum_congr rfl fun k _ => ?_
  have h0 : iblk0 V c 0 t (ix3 (0 : Fin 1) n k) = V c main_v0 (ix3 (batch t) n k) := by
    show V c main_v0 (((cfg0.win 0).blk t).view.emb (ix3 (0 : Fin 1) n k)) = _
    rw [emb_in]
  have h1 : iblk0 V c 1 t (ix2 k f) = V c main_arg2 (ix2 k f) := by
    show V c main_arg2 (((cfg0.win 1).blk t).view.emb (ix2 k f)) = _
    rw [emb_w]
  rw [h0, h1]

/-- An index of the array is in point `t`'s block iff each coordinate is in the block's range on its axis. -/
theorem mem_blk (t : Fin cfg0.N) (i : S8x20000x64.Idx) :
    i ∈ ((cfg0.win 2).blk t).view.set ↔ ∀ a : Fin 3, win0_2.index t a * S1x20000x64.size a ≤ (i a).val ∧ (i a).val < win0_2.index t a * S1x20000x64.size a + S1x20000x64.size a := by
  show i ∈ ((View.whole main_v1).slice (win0_2.rect t)).set ↔ _
  rw [View.set_slice_whole, Rect.mem_set_unit]
  exact Iff.rfl

/-- Every index of the result lies in the block of the point that is its batch. -/
theorem cover (i : S8x20000x64.Idx) :
    ∃ t : Fin cfg0.N, (cfg0.win 2).flush t = true ∧ i ∈ ((cfg0.win 2).blk t).view.set := by
  have hi0 : (i 0).val < 8 := (i 0).isLt
  have hi1 : (i 1).val < 20000 := (i 1).isLt
  have hi2 : (i 2).val < 64 := (i 2).isLt
  refine ⟨⟨(i 0).val, hi0⟩, flush0_2 _, ?_⟩
  rw [mem_blk]
  obtain ⟨-, -, -, -, -, e0, e1, e2⟩ := idx_facts ⟨(i 0).val, hi0⟩
  intro a
  match a with
  | ⟨0, _⟩ => show win0_2.index ⟨(i 0).val, hi0⟩ (0 : Fin 3) * 1 ≤ (i 0).val ∧ (i 0).val < win0_2.index ⟨(i 0).val, hi0⟩ (0 : Fin 3) * 1 + 1; have e0' : win0_2.index ⟨(i 0).val, hi0⟩ (0 : Fin 3) = (i 0).val := e0; omega
  | ⟨1, _⟩ => show win0_2.index ⟨(i 0).val, hi0⟩ (1 : Fin 3) * 20000 ≤ (i 1).val ∧ (i 1).val < win0_2.index ⟨(i 0).val, hi0⟩ (1 : Fin 3) * 20000 + 20000; omega
  | ⟨2, _⟩ => show win0_2.index ⟨(i 0).val, hi0⟩ (2 : Fin 3) * 64 ≤ (i 2).val ∧ (i 2).val < win0_2.index ⟨(i 0).val, hi0⟩ (2 : Fin 3) * 64 + 64; omega

/-- THE ARRAY region 0 leaves: the first layer of what it found in the transposed input and the weights. -/
theorem final (c : Dev nD) :
    (dat0 V c).arrAt 2 cfg0.N = Cert.Spec.lin (V c main_v0) (V c main_arg2) :=
  (dat0 V c).arrAt_eq_of_cover 2 _ (fun t _ => flushed_eq V c t) cover

end Cert.KernelIdeal.Blocks0

end
-- ==== Proof.Blocks1.lean ====
/-
  Region 1 of the kernel program, read as a value: after its eight grid points the array it writes holds the second
  dense layer `Spec.dense` of the four arrays it reads, whatever those held when the region was entered.

  Grid point `t` stages batch `t` of the aggregated array, a [1, 20000, 64] block, beside the first bias, the whole
  [64, 12] weight matrix and the second bias. The body adds the first bias along each row, clamps below at zero,
  multiplies by the weights (narrowing to bf16 is the identity on the extended reals; the product into a zero accumulator
  is the plain sum over the sixty-four hidden features), adds the second bias, clamps again and writes the
  [1, 20000, 12] block back as batch `t` of the result. Element `(u, n, s)` of that block is element `(t, n, s)` of the
  array and reads elements `(t, n, ·)` of the aggregate: so block `t` of the result is the restriction of `Spec.dense`
  to batch `t`, and the eight blocks cover the array, batch `b` by point `b`.
-/
import proofs.«172769_j77309411573_1_alg».proof.Proof.Gen.KernelIdeal.Frame
import proofs.«172769_j77309411573_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Blocks1

open Cert.KernelIdeal Cert.KernelIdeal.Gen Idealize.ShloMosaic Idealize.ShloMosaic.TcCoe Idealize.ShloMosaic.ValueIdx
open Idealize.SL.Sem
open Idealize.ShloMosaic.Pipeline (Dat Cfg Window)

/-! ## The block product's operand indices, axis by axis -/

theorem lhs_0 (j : S20000x12.Idx) (q : dot_S20000x64_S64x12_S20000x12_1_0_0_1_n_n.contr.Idx) :
    (dot_S20000x64_S64x12_S20000x12_1_0_0_1_n_n.lhsIdx j q 0).val = (j 0).val := by
  unfold DotDims.lhsIdx
  rw [dif_neg (show ¬(0 : Fin S20000x64.rank) ∈ dot_S20000x64_S64x12_S20000x12_1_0_0_1_n_n.lhsBatch by decide), dif_pos (show (0 : Fin S20000x64.rank) ∈ dot_S20000x64_S64x12_S20000x12_1_0_0_1_n_n.lhsNonContracting by decide)]
  rfl
theorem lhs_1 (j : S20000x12.Idx) (q : dot_S20000x64_S64x12_S20000x12_1_0_0_1_n_n.contr.Idx) :
    (dot_S20000x64_S64x12_S20000x12_1_0_0_1_n_n.lhsIdx j q 1).val = (q ⟨0, by decide⟩).val :=
  dot_S20000x64_S64x12_S20000x12_1_0_0_1_n_n.lhsIdx_val_of_single rfl j q
theorem rhs_0 (j : S20000x12.Idx) (q : dot_S20000x64_S64x12_S20000x12_1_0_0_1_n_n.contr.Idx) :
    (dot_S20000x64_S64x12_S20000x12_1_0_0_1_n_n.rhsIdx j q 0).val = (q ⟨0, by decide⟩).val :=
  dot_S20000x64_S64x12_S20000x12_1_0_0_1_n_n.rhsIdx_val_of_single rfl j q
theorem rhs_1 (j : S20000x12.Idx) (q : dot_S20000x64_S64x12_S20000x12_1_0_0_1_n_n.contr.Idx) :
    (dot_S20000x64_S64x12_S20000x12_1_0_0_1_n_n.rhsIdx j q 1).val = (j 1).val := by
  unfold DotDims.rhsIdx
  rw [dif_neg (show ¬(1 : Fin S64x12.rank) ∈ dot_S20000x64_S64x12_S20000x12_1_0_0_1_n_n.rhsBatch by decide), dif_pos (show (1 : Fin S64x12.rank) ∈ dot_S20000x64_S64x12_S20000x12_1_0_0_1_n_n.rhsNonContracting by decide)]
  rfl

/-- The block product of a [20000, 64] block and the [64, 12] weights at `(n, t)`: the sum over the hidden axis. -/
theorem matmul_at (a : FVec Ideal S20000x64 .bf16) (w : FVec Ideal S64x12 .bf16) (n : Fin 20000) (t : Fin 12) :
    matmul dot_S20000x64_S64x12_S20000x12_1_0_0_1_n_n none a w (constant S20000x12 .f32 0x00000000#32) (ix2 n t)
      = ∑ f : Fin 64, a (ix2 n f) * w (ix2 f t) := by
  simp only [matmul]
  rw [Ideal.matmul_constant_zero_apply, ← Equiv.sum_comp (ValueIdx.contrEquiv1 dot_S20000x64_S64x12_S20000x12_1_0_0_1_n_n 64 rfl rfl).symm]
  refine Finset.sum_congr rfl fun f _ => ?_
  have hf := ValueIdx.contrEquiv1_symm_val dot_S20000x64_S64x12_S20000x12_1_0_0_1_n_n 64 rfl rfl f
  have el : dot_S20000x64_S64x12_S20000x12_1_0_0_1_n_n.lhsIdx (ix2 n t) ((ValueIdx.contrEquiv1 dot_S20000x64_S64x12_S20000x12_1_0_0_1_n_n 64 rfl rfl).symm f) = ix2 n f := funext fun a => Fin.ext (by
    match a with
    | ⟨0, _⟩ => exact lhs_0 _ _
    | ⟨1, _⟩ => exact (lhs_1 _ _).trans hf)
  have er : dot_S20000x64_S64x12_S20000x12_1_0_0_1_n_n.rhsIdx (ix2 n t) ((ValueIdx.contrEquiv1 dot_S20000x64_S64x12_S20000x12_1_0_0_1_n_n 64 rfl rfl).symm f) = ix2 f t := funext fun a => Fin.ext (by
    match a with
    | ⟨0, _⟩ => exact (rhs_0 _ _).trans hf
    | ⟨1, _⟩ => exact rhs_1 _ _)
  rw [el, er]

/-- The biased aggregate the body feeds the product, clamped below at `z`, read at `(n, f)` through the casts:
    the leading unit axis of the block dropped, the bias vector laid out as one row and repeated down the rows. -/
theorem hidden_at (v0 : Vec Ideal S1x20000x64 .f32) (v2 : Vec Ideal S64 .f32) (z : Ideal .f32) (n : Fin 20000) (f : Fin 64) :
    (truncf .bf16 (maximumf (addf (shapeCast S20000x64 v0 shapeCasts_S1x20000x64_S20000x64)
        (broadcastTo S20000x64 (shapeCast S1x64 v2 shapeCasts_S64_S1x64) broadcasts_S1x64_S20000x64))
        (broadcast S20000x64 z)) bitsLt_bf16_f32 : FVec Ideal S20000x64 .bf16) (ix2 n f)
      = max (v0 (ix3 (0 : Fin 1) n f) + v2 (ix1 f)) z := by
  rw [truncf_apply, maximumf_apply, addf_apply, shapeCast_1ab_ab_apply, broadcastTo_1b_ab_apply, shapeCast_a_1a_apply, broadcast_apply]

/-- What region 1's body stores at `(u, n, t)` of its [1, 20000, 12] block, from its loaded blocks. -/
theorem pay1_at (v0 : Vec Ideal S1x20000x64 .f32) (v2 : Vec Ideal S64 .f32) (v9 : Vec Ideal S64x12 .f32) (v12 : Vec Ideal S12 .f32)
    (u : Fin 1) (n : Fin 20000) (t : Fin 12) :
    k1_pay1 (F := Ideal) v0 v2 v9 v12 (ix3 u n t)
      = max ((∑ f : Fin 64, max (v0 (ix3 (0 : Fin 1) n f) + v2 (ix1 f)) 0 * v9 (ix2 f t)) + v12 (ix1 t)) 0 := by
  unfold k1_pay1
  rw [shapeCast_ab_1ab_apply, maximumf_apply, addf_apply, matmul_at, broadcastTo_1b_ab_apply, shapeCast_a_1a_apply, broadcast_apply]
  simp only [Ideal.ofBits_def, Ideal.ofBits_zero_f32]
  refine congrArg (fun s => max (s + v12 (ix1 t)) 0) (Finset.sum_congr rfl fun f _ => ?_)
  rw [hidden_at, truncf_apply]

/-! ## From the blocks to the array -/

variable (V : (c : Dev nD) → (b : Ref sig .tc) → Buf (Elt Ideal) ((c : Thread nD τ).loc b))

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a; rfl

/-- The printed index maps, decided over the eight points: point `t` takes batch `t` of the aggregate and of the
    result, and the two biases and the weights whole. -/
theorem idx_facts : ∀ t : Fin cfg1.N,
    win1_0.index t (0 : Fin 3) = t.val ∧ win1_0.index t (1 : Fin 3) = 0 ∧ win1_0.index t (2 : Fin 3) = 0
    ∧ win1_1.index t (0 : Fin 1) = 0
    ∧ win1_2.index t (0 : Fin 2) = 0 ∧ win1_2.index t (1 : Fin 2) = 0
    ∧ win1_3.index t (0 : Fin 1) = 0
    ∧ win1_4.index t (0 : Fin 3) = t.val ∧ win1_4.index t (1 : Fin 3) = 0 ∧ win1_4.index t (2 : Fin 3) = 0 :=
  (by decide +kernel : ∀ t : Fin grid1.N, _)

/-- Point `t` as a batch number. -/
abbrev batch (t : Fin cfg1.N) : Fin 8 := ⟨t.val, t.isLt⟩

/-- Element `(u, n, s)` of result block `t` is element `(t, n, s)` of the array. -/
theorem emb_out (t : Fin cfg1.N) (u : Fin 1) (n : Fin 20000) (s : Fin 12) :
    ((cfg1.win 4).blk t).view.emb (ix3 u n s) = ix3 (batch t) n s := by
  obtain ⟨-, -, -, -, -, -, -, e0, e1, e2⟩ := idx_facts t
  funext a; apply Fin.ext
  match a with
  | ⟨0, _⟩ => show win1_4.index t (0 : Fin 3) * 1 + 1 * u.val = t.val; have hu : u.val < 1 := u.isLt; omega
  | ⟨1, _⟩ => show win1_4.index t (1 : Fin 3) * 20000 + 1 * n.val = n.val; omega
  | ⟨2, _⟩ => show win1_4.index t (2 : Fin 3) * 12 + 1 * s.val = s.val; omega

/-- Element `(u, n, f)` of aggregate block `t` is element `(t, n, f)` of the aggregated array. -/
theorem emb_agg (t : Fin cfg1.N) (u : Fin 1) (n : Fin 20000) (f : Fin 64) :
    ((cfg1.win 0).blk t).view.emb (ix3 u n f) = ix3 (batch t) n f := by
  obtain ⟨e0, e1, e2, -, -, -, -, -, -, -⟩ := idx_facts t
  funext a; apply Fin.ext
  match a with
  | ⟨0, _⟩ => show win1_0.index t (0 : Fin 3) * 1 + 1 * u.val = t.val; have hu : u.val < 1 := u.isLt; omega
  | ⟨1, _⟩ => show win1_0.index t (1 : Fin 3) * 20000 + 1 * n.val = n.val; omega
  | ⟨2, _⟩ => show win1_0.index t (2 : Fin 3) * 64 + 1 * f.val = f.val; omega

/-- The first bias's one block is the whole vector. -/
theorem emb_bg (t : Fin cfg1.N) (f : Fin 64) : ((cfg1.win 1).blk t).view.emb (ix1 f) = ix1 f := by
  obtain ⟨-, -, -, e0, -, -, -, -, -, -⟩ := idx_facts t
  funext a; apply Fin.ext
  match a with
  | ⟨0, _⟩ => show win1_1.index t (0 : Fin 1) * 64 + 1 * f.val = f.val; omega

/-- The weights' one block is the whole matrix. -/
theorem emb_wd (t : Fin cfg1.N) (f : Fin 64) (s : Fin 12) : ((cfg1.win 2).blk t).view.emb (ix2 f s) = ix2 f s := by
  obtain ⟨-, -, -, -, e0, e1, -, -, -, -⟩ := idx_facts t
  funext a; apply Fin.ext
  match a with
  | ⟨0, _⟩ => show win1_2.index t (0 : Fin 2) * 64 + 1 * f.val = f.val; omega
  | ⟨1, _⟩ => show win1_2.index t (1 : Fin 2) * 12 + 1 * s.val = s.val; omega

/-- The second bias's one block is the whole vector. -/
theorem emb_bd (t : Fin cfg1.N) (s : Fin 12) : ((cfg1.win 3).blk t).view.emb (ix1 s) = ix1 s := by
  obtain ⟨-, -, -, -, -, -, e0, -, -, -⟩ := idx_facts t
  funext a; apply Fin.ext
  match a with
  | ⟨0, _⟩ => show win1_3.index t (0 : Fin 1) * 12 + 1 * s.val = s.val; omega

/-- WHAT POINT `t` WRITES BACK is block `t` of the second layer of the arrays the region found. -/
theorem flushed_eq (c : Dev nD) (t : Fin cfg1.N) :
    (dat1 V c).flushed 4 t
      = ((cfg1.win 4).blk t).view.read (Elt Ideal)
          (Cert.Spec.dense (V c main_v19) (V c main_arg3) (V c main_arg4) (V c main_arg5)) := by
  show (cfg1.win 4).cut (grid1.coords t) ((dat1 V c).after 4 t) = _
  rw [after1_4]
  unfold out1_4
  rw [View.canon_unit_zero hz3]
  simp only [View.ld_unit_zero (S := S1x20000x64) hz3, View.ld_unit_zero (S := S64) hz1,
    View.ld_unit_zero (S := S64x12) hz2, View.ld_unit_zero (S := S12) hz1]
  funext j
  obtain ⟨u, n, s, rfl⟩ : ∃ (u : Fin 1) (n : Fin 20000) (s : Fin 12), j = ix3 u n s := ⟨j 0, j 1, j 2, eq_ix3 j⟩
  show k1_pay1 (F := Ideal) (iblk1 V c 0 t) (iblk1 V c 1 t) (iblk1 V c 2 t) (iblk1 V c 3 t) (ix3 u n s)
    = Cert.Spec.dense (V c main_v19) (V c main_arg3) (V c main_arg4) (V c main_arg5)
        (((cfg1.win 4).blk t).view.emb (ix3 u n s))
  refine (pay1_at _ _ _ _ u n s).trans ?_
  rw [emb_out, Cert.Spec.dense_ix3]
  unfold Cert.Spec.denseAt
  have h3 : iblk1 V c 3 t (ix1 s) = V c main_arg5 (ix1 s) := by
    show V c main_arg5 (((cfg1.win 3).blk t).view.emb (ix1 s)) = _
    rw [emb_bd]
  rw [h3]
  refine congrArg (fun x => max (x + V c main_arg5 (ix1 s)) 0) (Finset.sum_congr rfl fun f _ => ?_)
  have h0 : iblk1 V c 0 t (ix3 (0 : Fin 1) n f) = V c main_v19 (ix3 (batch t) n f) := by
    show V c main_v19 (((cfg1.win 0).blk t).view.emb (ix3 (0 : Fin 1) n f)) = _
    rw [emb_agg]
  have h1 : iblk1 V c 1 t (ix1 f) = V c main_arg3 (ix1 f) := by
    show V c main_arg3 (((cfg1.win 1).blk t).view.emb (ix1 f)) = _
    rw [emb_bg]
  have h2 : iblk1 V c 2 t (ix2 f s) = V c main_arg4 (ix2 f s) := by
    show V c main_arg4 (((cfg1.win 2).blk t).view.emb (ix2 f s)) = _
    rw [emb_wd]
  rw [h0, h1, h2]

/-- An index of the array is in point `t`'s block iff each coordinate is in the block's range on its axis. -/
theorem mem_blk (t : Fin cfg1.N) (i : S8x20000x12.Idx) :
    i ∈ ((cfg1.win 4).blk t).view.set ↔ ∀ a : Fin 3, win1_4.index t a * S1x20000x12.size a ≤ (i a).val ∧ (i a).val < win1_4.index t a * S1x20000x12.size a + S1x20000x12.size a := by
  show i ∈ ((View.whole main_v20).slice (win1_4.rect t)).set ↔ _
  rw [View.set_slice_whole, Rect.mem_set_unit]
  exact Iff.rfl

/-- Every index of the result lies in the block of the point that is its batch. -/
theorem cover (i : S8x20000x12.Idx) :
    ∃ t : Fin cfg1.N, (cfg1.win 4).flush t = true ∧ i ∈ ((cfg1.win 4).blk t).view.set := by
  have hi0 : (i 0).val < 8 := (i 0).isLt
  have hi1 : (i 1).val < 20000 := (i 1).isLt
  have hi2 : (i 2).val < 12 := (i 2).isLt
  refine ⟨⟨(i 0).val, hi0⟩, flush1_4 _, ?_⟩
  rw [mem_blk]
  obtain ⟨-, -, -, -, -, -, -, e0, e1, e2⟩ := idx_facts ⟨(i 0).val, hi0⟩
  intro a
  match a with
  | ⟨0, _⟩ => show win1_4.index ⟨(i 0).val, hi0⟩ (0 : Fin 3) * 1 ≤ (i 0).val ∧ (i 0).val < win1_4.index ⟨(i 0).val, hi0⟩ (0 : Fin 3) * 1 + 1; have e0' : win1_4.index ⟨(i 0).val, hi0⟩ (0 : Fin 3) = (i 0).val := e0; omega
  | ⟨1, _⟩ => show win1_4.index ⟨(i 0).val, hi0⟩ (1 : Fin 3) * 20000 ≤ (i 1).val ∧ (i 1).val < win1_4.index ⟨(i 0).val, hi0⟩ (1 : Fin 3) * 20000 + 20000; omega
  | ⟨2, _⟩ => show win1_4.index ⟨(i 0).val, hi0⟩ (2 : Fin 3) * 12 ≤ (i 2).val ∧ (i 2).val < win1_4.index ⟨(i 0).val, hi0⟩ (2 : Fin 3) * 12 + 12; omega

/-- THE ARRAY region 1 leaves: the second layer of what it found in the aggregate, the biases and the weights. -/
theorem final (c : Dev nD) :
    (dat1 V c).arrAt 4 cfg1.N
      = Cert.Spec.dense (V c main_v19) (V c main_arg3) (V c main_arg4) (V c main_arg5) :=
  (dat1 V c).arrAt_eq_of_cover 4 _ (fun t _ => flushed_eq V c t) cover

end Cert.KernelIdeal.Blocks1

end
-- ==== Proof.KernelValue.lean ====
/-
  The kernel program's result as a value: the second dense layer of the edge aggregation of the first dense layer
  of the transposed input.

  The generated frame names the buffer contents at each boundary of @main as a fold from the launch memory: after the
  transpose (`W1`), after region 0 (`W2`: its result array at what the eight write-backs leave, every other buffer as
  before), after the twenty-three host operations of the aggregation (`W3`), after region 1 (`W4`). Read backwards from
  the result buffer: region 1 leaves `Spec.dense` of what it found in the aggregate, the biases and the weights; the
  aggregate is the host operations' one composed term `mid` of region 0's result, the edge weights and the two index
  arrays; region 0 leaves `Spec.lin` of the transposed input and the first weights; and no step writes an argument,
  so every argument read along the way is the launch memory's.
-/
import proofs.«172769_j77309411573_1_alg».proof.Proof.Gen.KernelIdeal.Frame
import proofs.«172769_j77309411573_1_alg».proof.Proof.Blocks0
import proofs.«172769_j77309411573_1_alg».proof.Proof.Blocks1
import Idealize.ShloMosaic.Lib.StableHlo.Run

set_option maxRecDepth 16384

noncomputable section

namespace Cert.KernelIdeal.KValue

open Cert.KernelIdeal Cert.KernelIdeal.Gen Idealize.ShloMosaic Idealize.ShloMosaic.TcCoe Idealize.SL.Sem
open Idealize.ShloMosaic.StableHlo

/-- The edge aggregation as one function of the first layer's result `h`, the edge weights `x1` and the source and
    destination indices `x6`, `x7`: a negative index is taken from the end, the rows of `h` at the sources are
    gathered, scaled by their edge weights and added into a zero array at the destinations. It is the composed term of
    the program's own host operations and is never opened. -/
def mid (h : (⟨S8x20000x64, .f32⟩ : BufTy).Contents (Elt Ideal)) (x1 : (⟨S320000, .f32⟩ : BufTy).Contents (Elt Ideal))
    (x6 x7 : (⟨S320000, .i32⟩ : BufTy).Contents (Elt Ideal)) : (⟨S8x20000x64, .f32⟩ : BufTy).Contents (Elt Ideal) :=
  Host.scatterAdd (F := Ideal) scatter_S8x20000x64_S320000x1_S8x320000x64_02_1_1_1
    (broadcastInDim S8x20000x64 ![] bcast_S_S8x20000x64 (constant (F := Ideal) S_ .f32 0x00000000#32))
    (broadcastInDim S320000x1 ![0] bcast_S320000_S320000x1_0
      (select (cmpi .slt x7 (broadcastInDim S320000 ![] bcast_S_S320000 (constantI S_ 32 0#32)))
        (addi x7 (broadcastInDim S320000 ![] bcast_S_S320000 (constantI S_ 32 20000#32))) x7))
    (mulf
      (Host.gather gather_S8x20000x64_S320000x1_S8x320000x64_02_1_n_n_1_1_8164 h
        (broadcastInDim S320000x1 ![0] bcast_S320000_S320000x1_0
          (select (cmpi .slt x6 (broadcastInDim S320000 ![] bcast_S_S320000 (constantI S_ 32 0#32)))
            (addi x6 (broadcastInDim S320000 ![] bcast_S_S320000 (constantI S_ 32 20000#32))) x6)))
      (broadcastInDim S8x320000x64 ![0, 1, 2] bcast_S1x320000x1_S8x320000x64_0_1_2
        (broadcastInDim S1x320000x1 ![1] bcast_S320000_S1x320000x1_1 x1)))

variable (m : (ℓ : Loc nD τ sig) → Buf (Elt Ideal) ℓ) (ρ : Dev nD → PrngReg)

/-! ## Before region 0: the transpose -/

/-- Region 0 finds the transposed input in its first window's array. -/
theorem W1_v0 (c : Dev nD) :
    W1 m ρ c (Proc.devRef .tc main_v0)
      = transpose S8x20000x12 [0, 2, 1] (m ((c : Thread nD τ).loc main_arg0)) transposes_S8x12x20000_S8x20000x12_0_2_1 := by
  show StableHlo.after hostOps0 (W0 m ρ c) (Proc.devRef .tc main_v0) = _
  after_results_simp <;> rfl
/-- The transpose writes no argument. -/
theorem W1_arg (c : Dev nD) (b : Ref sig .tc) (hb : b ≠ main_v0) :
    W1 m ρ c (Proc.devRef .tc b) = m ((c : Thread nD τ).loc b) := by
  show StableHlo.after hostOps0 (W0 m ρ c) (Proc.devRef .tc b) = _
  simp only [after_cons, after_nil]
  rw [unary_result_ne]
  exact hb

/-! ## After region 0 -/

/-- Region 0's result array after its eight points. -/
theorem W2_v1 (c : Dev nD) :
    W2 m ρ c (Proc.devRef .tc main_v1)
      = Cert.Spec.lin (transpose S8x20000x12 [0, 2, 1] (m ((c : Thread nD τ).loc main_arg0)) transposes_S8x12x20000_S8x20000x12_0_2_1)
          (m ((c : Thread nD τ).loc main_arg2)) := by
  refine (W2_arr m ρ c 2).trans ((Cert.KernelIdeal.Blocks0.final (V1 m ρ) c).trans ?_)
  show Cert.Spec.lin (W1 m ρ c (Proc.devRef .tc main_v0)) (W1 m ρ c (Proc.devRef .tc main_arg2)) = _
  rw [W1_v0, W1_arg m ρ c main_arg2 (by decide)]
/-- Region 0 writes no argument. -/
theorem W2_arg (c : Dev nD) (b : Ref sig .tc) (hb : ∀ w, Pipeline.arrRef spec0 w ≠ b) (hb0 : b ≠ main_v0) :
    W2 m ρ c (Proc.devRef .tc b) = m ((c : Thread nD τ).loc b) :=
  (W2_of_ne m ρ c b hb).trans (W1_arg m ρ c b hb0)

/-! ## After the aggregation -/

/-- Region 1 finds the aggregate of region 0's result in its first window's array. -/
theorem W3_v19 (c : Dev nD) :
    W3 m ρ c (Proc.devRef .tc main_v19)
      = mid (W2 m ρ c (Proc.devRef .tc main_v1)) (W2 m ρ c (Proc.devRef .tc main_arg1))
          (W2 m ρ c (Proc.devRef .tc main_arg6)) (W2 m ρ c (Proc.devRef .tc main_arg7)) := by
  show StableHlo.after hostOps1 (W2 m ρ c) (Proc.devRef .tc main_v19) = _
  unfold mid
  after_results_simp <;> rfl
/-- The two biases and the second weights are region 1's own input windows. The aggregation writes none of them, and
    neither did region 0 nor the transpose: what region 1 finds there is the launch memory's. -/
theorem W3_arg3 (c : Dev nD) : W3 m ρ c (Proc.devRef .tc main_arg3) = m ((c : Thread nD τ).loc main_arg3) := by
  show StableHlo.after hostOps1 (W2 m ρ c) (Proc.devRef .tc main_arg3) = _
  after_results_simp
  exact W2_arg m ρ c main_arg3 (by decide) (by decide)
theorem W3_arg4 (c : Dev nD) : W3 m ρ c (Proc.devRef .tc main_arg4) = m ((c : Thread nD τ).loc main_arg4) := by
  show StableHlo.after hostOps1 (W2 m ρ c) (Proc.devRef .tc main_arg4) = _
  after_results_simp
  exact W2_arg m ρ c main_arg4 (by decide) (by decide)
theorem W3_arg5 (c : Dev nD) : W3 m ρ c (Proc.devRef .tc main_arg5) = m ((c : Thread nD τ).loc main_arg5) := by
  show StableHlo.after hostOps1 (W2 m ρ c) (Proc.devRef .tc main_arg5) = _
  after_results_simp
  exact W2_arg m ρ c main_arg5 (by decide) (by decide)

/-! ## The result -/

/-- THE RESULT BUFFER at the last boundary, as one function of the launch memory's arguments. -/
theorem result (c : Dev nD) :
    W4 m ρ c (Proc.devRef .tc main_v20)
      = Cert.Spec.dense
          (mid (Cert.Spec.lin (transpose S8x20000x12 [0, 2, 1] (m ((c : Thread nD τ).loc main_arg0)) transposes_S8x12x20000_S8x20000x12_0_2_1)
                  (m ((c : Thread nD τ).loc main_arg2)))
               (m ((c : Thread nD τ).loc main_arg1)) (m ((c : Thread nD τ).loc main_arg6)) (m ((c : Thread nD τ).loc main_arg7)))
          (m ((c : Thread nD τ).loc main_arg3)) (m ((c : Thread nD τ).loc main_arg4)) (m ((c : Thread nD τ).loc main_arg5)) := by
  refine (W4_arr m ρ c 4).trans ((Cert.KernelIdeal.Blocks1.final (V3 m ρ) c).trans ?_)
  show Cert.Spec.dense (W3 m ρ c (Proc.devRef .tc main_v19)) (W3 m ρ c (Proc.devRef .tc main_arg3))
      (W3 m ρ c (Proc.devRef .tc main_arg4)) (W3 m ρ c (Proc.devRef .tc main_arg5)) = _
  rw [W3_v19, W3_arg3, W3_arg4, W3_arg5, W2_v1,
    W2_arg m ρ c main_arg1 (by decide) (by decide), W2_arg m ρ c main_arg6 (by decide) (by decide),
    W2_arg m ρ c main_arg7 (by decide) (by decide)]

end Cert.KernelIdeal.KValue

end
-- ==== Proof.RefValue.lean ====
/-
  The reference program's result as the two dense layers of `Cert.Spec` around its own edge aggregation.

  The reference transposes the input to nodes × features, multiplies by the first layer's weights (a `dot_general`
  contracting the feature axis: at the extended reals a plain finite sum of products), aggregates along the edges
  (gather, scale by the edge weight, scatter-add: left as the one array it produces), adds the bias, clamps below at
  zero, multiplies by the second layer's weights (again a finite sum of products), adds the second bias and clamps
  again. Read one operation at a time at an index `(b, n, ·)`, each stage touches row `(b, n)` of its operand only,
  so the whole tail is `Spec.dense` of the aggregated array and the head is `Spec.lin` of the transposed input.
-/
import proofs.«172769_j77309411573_1_alg».proof.Proof.Gen.ReferenceIdeal.Read
import proofs.«172769_j77309411573_1_alg».proof.Proof.Spec

noncomputable section

namespace Cert.ReferenceIdeal.RefValue

open Cert.ReferenceIdeal Cert.ReferenceIdeal.Read Idealize.ShloMosaic Idealize.ShloMosaic.TcCoe Idealize.ShloMosaic.ValueIdx

/-! ## Where each stage reads its operands: the printed index functions at explicit coordinates -/

/-- The first product's left operand at output `(b, n, f)` and contraction index `t` is `(b, n, t)`. -/
theorem lidx_v1 (b : Fin 8) (n : Fin 20000) (f : Fin 64) (t : Fin 12) : lidx_main_v1 (ix3 b n f) t = ix3 b n t :=
  funext fun a => Fin.ext (by match a with | ⟨0, _⟩ => rfl | ⟨1, _⟩ => rfl | ⟨2, _⟩ => rfl)
/-- and its right operand is `(t, f)`. -/
theorem ridx_v1 (b : Fin 8) (n : Fin 20000) (f : Fin 64) (t : Fin 12) : ridx_main_v1 (ix3 b n f) t = ix2 t f :=
  funext fun a => Fin.ext (by match a with | ⟨0, _⟩ => rfl | ⟨1, _⟩ => rfl)
/-- The second product's left operand at output `(b, n, t)` and contraction index `f` is `(b, n, f)`. -/
theorem lidx_v24 (b : Fin 8) (n : Fin 20000) (t : Fin 12) (f : Fin 64) : lidx_main_v24 (ix3 b n t) f = ix3 b n f :=
  funext fun a => Fin.ext (by match a with | ⟨0, _⟩ => rfl | ⟨1, _⟩ => rfl | ⟨2, _⟩ => rfl)
/-- and its right operand is `(f, t)`. -/
theorem ridx_v24 (b : Fin 8) (n : Fin 20000) (t : Fin 12) (f : Fin 64) : ridx_main_v24 (ix3 b n t) f = ix2 f t :=
  funext fun a => Fin.ext (by match a with | ⟨0, _⟩ => rfl | ⟨1, _⟩ => rfl)
/-- The first bias, broadcast over batch and node, is read at the feature coordinate. -/
theorem idx_bias1 (b : Fin 8) (n : Fin 20000) (f : Fin 64) : idx_main_v20 (idx_main_v21 (ix3 b n f)) = ix1 f :=
  funext fun a => Fin.ext (by match a with | ⟨0, _⟩ => rfl)
/-- The second bias, broadcast over batch and node, is read at the time coordinate. -/
theorem idx_bias2 (b : Fin 8) (n : Fin 20000) (t : Fin 12) : idx_main_v25 (idx_main_v26 (ix3 b n t)) = ix1 t :=
  funext fun a => Fin.ext (by match a with | ⟨0, _⟩ => rfl)

/-! ## The two layers -/

/-- The reference's first product is `Spec.lin` of its transposed input and the weights. -/
theorem first_layer (x0 : (⟨S8x12x20000, .f32⟩ : BufTy).Contents (Elt Ideal)) (x2 : (⟨S12x64, .f32⟩ : BufTy).Contents (Elt Ideal)) :
    val_main_v1 (F := Ideal) x0 x2 = Cert.Spec.lin (val_main_v0 (F := Ideal) x0) x2 := by
  funext i
  obtain ⟨b, n, f, rfl⟩ : ∃ (b : Fin 8) (n : Fin 20000) (f : Fin 64), i = ix3 b n f := ⟨i 0, i 1, i 2, eq_ix3 i⟩
  rw [val_main_v1_apply, Cert.Spec.lin_ix3]
  unfold Cert.Spec.linAt
  refine Finset.sum_congr rfl fun t _ => ?_
  rw [lidx_v1, ridx_v1]

/-- The clamped, biased aggregate at `(b, n, f)`, one stage at a time. -/
theorem hidden_at (x0 : (⟨S8x12x20000, .f32⟩ : BufTy).Contents (Elt Ideal)) (x1 : (⟨S320000, .f32⟩ : BufTy).Contents (Elt Ideal))
    (x2 : (⟨S12x64, .f32⟩ : BufTy).Contents (Elt Ideal)) (x3 : (⟨S64, .f32⟩ : BufTy).Contents (Elt Ideal))
    (x6 x7 : (⟨S320000, .i32⟩ : BufTy).Contents (Elt Ideal)) (b : Fin 8) (n : Fin 20000) (f : Fin 64) :
    val_main_v23 (F := Ideal) x0 x1 x2 x3 x6 x7 (ix3 b n f)
      = max (val_main_v19 (F := Ideal) x0 x1 x2 x6 x7 (ix3 b n f) + x3 (ix1 f)) 0 := by
  rw [val_main_v23_apply, val_main_v22_apply, val_main_v21_apply, val_main_v20_apply, val_main_call0_v0_apply,
    val_main_call0_cst_apply, idx_bias1]
  simp only [Ideal.addf_def, Ideal.maximumf_def, Ideal.ofBits_def, Ideal.ofBits_zero_f32]

/-- The reference's result is `Spec.dense` of its aggregated array, the two biases and the second weights. -/
theorem second_layer (x0 : (⟨S8x12x20000, .f32⟩ : BufTy).Contents (Elt Ideal)) (x1 : (⟨S320000, .f32⟩ : BufTy).Contents (Elt Ideal))
    (x2 : (⟨S12x64, .f32⟩ : BufTy).Contents (Elt Ideal)) (x3 : (⟨S64, .f32⟩ : BufTy).Contents (Elt Ideal))
    (x4 : (⟨S64x12, .f32⟩ : BufTy).Contents (Elt Ideal)) (x5 : (⟨S12, .f32⟩ : BufTy).Contents (Elt Ideal))
    (x6 x7 : (⟨S320000, .i32⟩ : BufTy).Contents (Elt Ideal)) :
    val_main_v28 (F := Ideal) x0 x1 x2 x3 x4 x5 x6 x7
      = Cert.Spec.dense (val_main_v19 (F := Ideal) x0 x1 x2 x6 x7) x3 x4 x5 := by
  funext i
  obtain ⟨b, n, t, rfl⟩ : ∃ (b : Fin 8) (n : Fin 20000) (t : Fin 12), i = ix3 b n t := ⟨i 0, i 1, i 2, eq_ix3 i⟩
  rw [val_main_v28_apply, val_main_v27_apply, val_main_v24_apply, val_main_call1_v0_apply, val_main_call1_cst_apply,
    val_main_v26_apply, val_main_v25_apply, idx_bias2, Cert.Spec.dense_ix3]
  unfold Cert.Spec.denseAt
  simp only [Ideal.addf_def, Ideal.maximumf_def, Ideal.ofBits_def, Ideal.ofBits_zero_f32]
  -- the outer clamp and the second bias agree; what is left is the sum, one feature `f` at a time
  refine congrArg (fun s => max (s + x5 (ix1 t)) 0) (Finset.sum_congr rfl fun f _ => ?_)
  rw [lidx_v24, ridx_v24, hidden_at]

end Cert.ReferenceIdeal.RefValue

end
-- ==== Proof.lean ====
/-
  The certificate of a graph-convolution block: a Pallas kernel program against its jnp reference, equal over the
  extended reals.

  Both programs transpose the input `x : [8, 12, 20000]` to nodes × features and compute
  `relu (relu (A · (xᵀ · W₁) + b₁) · W₂ + b₂)`, where `A ·` is the sparse aggregation along 320000 weighted edges:
  gather the source rows, scale by the edge weight, add into the destination rows. The reference does all of it with
  host operations. The kernel program does the two dense products in two pipelined regions of eight grid points, one
  batch a point, and the aggregation between them with the very same host operations as the reference.

  * The two products agree because a block product into a zero accumulator, its operands narrowed to bf16, is at the
    extended reals the same finite sum of products as the reference's contraction (`Spec.lin`, `Spec.dense`): no
    order of summation enters and no distributive law is used, so the inputs' finiteness is never opened.
  * The aggregation is carried as one function `mid` of the first layer's result: equal arguments, equal values.
  * The frames of the two kernel programs are the generated ones; the reference's is its generated run with the result
    dropped; the idealization ledger is empty.
-/
import proofs.«172769_j77309411573_1_alg».proof.Defs
import proofs.«172769_j77309411573_1_alg».proof.Proof.Gen.Kernel
import proofs.«172769_j77309411573_1_alg».proof.Proof.Gen.Kernel.Frame
import proofs.«172769_j77309411573_1_alg».proof.Proof.Gen.KernelIdeal
import proofs.«172769_j77309411573_1_alg».proof.Proof.Gen.KernelIdeal.Frame
import proofs.«172769_j77309411573_1_alg».proof.Proof.Gen.ReferenceIdeal
import proofs.«172769_j77309411573_1_alg».proof.Proof.Gen.ReferenceIdeal.Run
import proofs.«172769_j77309411573_1_alg».proof.Proof.Gen.ReferenceIdeal.Read
import proofs.«172769_j77309411573_1_alg».proof.Proof.Gen.Pre_finite_inputs
import proofs.«172769_j77309411573_1_alg».proof.Proof.KernelRun
import proofs.«172769_j77309411573_1_alg».proof.Proof.KernelValue
import proofs.«172769_j77309411573_1_alg».proof.Proof.RefValue
import Idealize.ShloMosaic.Adequacy
import Idealize.ShloMosaic.Init

set_option maxRecDepth 16384

noncomputable section

namespace Cert.Proof

open Idealize.ShloMosaic Idealize.ShloMosaic.TcCoe Idealize.SL.Sem

/-! ## The reference's aggregate is the shared aggregation of its first layer -/

/-- The reference's scatter-add stage is `mid` of its first product, the edge weights and the two index arrays: the
    same host operations over the same operands, and the first product is `Spec.lin` of the transposed input. -/
theorem agg_eq (x0 : (⟨Cert.ReferenceIdeal.S8x12x20000, .f32⟩ : BufTy).Contents (Elt Ideal))
    (x1 : (⟨Cert.ReferenceIdeal.S320000, .f32⟩ : BufTy).Contents (Elt Ideal))
    (x2 : (⟨Cert.ReferenceIdeal.S12x64, .f32⟩ : BufTy).Contents (Elt Ideal))
    (x6 x7 : (⟨Cert.ReferenceIdeal.S320000, .i32⟩ : BufTy).Contents (Elt Ideal)) :
    Cert.ReferenceIdeal.Read.val_main_v19 (F := Ideal) x0 x1 x2 x6 x7
      = Cert.KernelIdeal.KValue.mid
          (Cert.Spec.lin (Cert.ReferenceIdeal.Read.val_main_v0 (F := Ideal) x0) x2) x1 x6 x7 := by
  rw [← Cert.ReferenceIdeal.RefValue.first_layer]
  rfl

/-! ## The claims -/

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing: the idealization is the program's own text read on the extended reals. -/
theorem preserves : Cert.preserves_Kernel_KernelIdeal := trivial

/-- Both programs end with the result at `Spec.dense (mid (Spec.lin xᵀ W₁) …) b₁ W₂ b₂` of the kernel program's launch
    arguments: the kernel program by its run and the fold of its boundaries, the reference by its run read one stage
    at a time and the agreement of the two memories on the arguments. -/
theorem algebraic : Cert.algebraic_KernelIdeal_ReferenceIdeal := by
  intro m ρ m' ρ' _ hagree
  refine ⟨fun c => Cert.KernelIdeal.Gen.W4 m ρ c (Proc.devRef .tc Cert.KernelIdeal.main_v20),
    Cert.KernelIdeal.Run.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7⟩ := hagree c
  show _ = Cert.KernelIdeal.Gen.W4 m ρ c (Proc.devRef .tc Cert.KernelIdeal.main_v20)
  rw [Cert.KernelIdeal.KValue.result, Cert.ReferenceIdeal.Read.val_main_v28_eq,
    Cert.ReferenceIdeal.RefValue.second_layer, agg_eq, a0, a1, a2, a3, a4, a5, a6, a7]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
